-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x32 .f32) (main_arg3 : FVec F S32 .f32) (main_arg4 : FVec F S32x2 .f32) (main_arg5 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x256 : Shape := ⟨2, ![5000, 256]⟩
abbrev S5000x32 : Shape := ⟨2, ![5000, 32]⟩
abbrev S3300000x32 : Shape := ⟨2, ![3300000, 32]⟩
abbrev S1x32 : Shape := ⟨2, ![1, 32]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 89
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x2, .f32⟩
  | .local _ .vmem, ⟨8, _⟩ => ⟨S5000x2, .f32⟩
  | .local _ .vmem, ⟨9, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x2_S32x2_0_0 : ∀ a, (![0, 0] : Fin 2 → Nat) a + S32x2.size a ≤ S32x2.size a
  h_S32x2 : 0 < S32x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x32_S5000x32_1_0_0_1_n_n_wf : DotDims.WF S5000x256 S256x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x2_S5000x2_1_0_0_1_n_n_wf : DotDims.WF S5000x32 S32x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x2.size a ≤ S32x2.size a
  hwx1_1 : ∀ i : grid1.Coords, EltTy.bits .f32 = 32 ∨ (Rect.block (s := S32x2) S32x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S100000x2.size a
  hwx1_2 : ∀ i : grid1.Coords, EltTy.bits .f32 = 32 ∨ (Rect.block (s := S100000x2) S5000x2.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x32_S100000x32_1_0_0_1_n_n_wf : DotDims.WF S100000x256 S256x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x2_S100000x2_1_0_0_1_n_n_wf : DotDims.WF S100000x32 S32x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.HostChain.lean ====
/-
  The host operations around the two matrix products, one stretch at a time.

  Both programs build the same graph quantities from the edge list e (2 × 3200000): the source list and the
  destination list, each followed by the 100000 self loops; the degree of every node, counted by adding one per entry
  of the destination list; its inverse square root where the degree is positive and zero elsewhere; and per edge the
  product of that quantity at the edge's two ends. A layer then gathers the rows of a node array at the sources, scales
  each gathered row by the edge's factor, adds the scaled rows into the rows named by the destinations, and adds the
  bias; the first layer is followed by the maximum with zero.

  Here each stretch of these operations is read off the buffer contents it starts from: the value it leaves in a buffer
  is the named stage of the reference program applied to the contents it read, and a buffer it does not write keeps
  its contents. The stages are never opened: the two sides are the same operations in the same order.
-/
import proofs.«106112_j3221225472589_1_alg».proof.Proof.Gen.KernelIdeal.Frame
import proofs.«106112_j3221225472589_1_alg».proof.Proof.RefRead

set_option maxRecDepth 16384
-- a stretch of some twenty to forty host operations is evaluated in one pass
set_option maxHeartbeats 16000000

noncomputable section

namespace Cert.KernelIdeal.HostChain

open Idealize.ShloMosaic Idealize.ShloMosaic.TcCoe Idealize.SL.Sem Idealize.ShloMosaic.StableHlo
open Cert.KernelIdeal Cert.KernelIdeal.Gen Cert.ReferenceIdeal.ReadP

variable {F : FTy → Type} [FloatOps F] (X : Valuation τ sig (Elt F))

/-- The reads of earlier results that are left inside a concatenation's operand list after the one-pass evaluation of
    a stretch, rewritten one at a time. -/
macro "operand_reads" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

/-! ## Before the first product: the edge lists with self loops, and the edge factors -/

/-- The source list with the self loops appended. -/
theorem first_src : after hostOps0_2 (after hostOps0_1 (after hostOps0 X)) (Proc.devRef .tc main_v5)
    = val_main_v5 (F := F) (X (Proc.devRef .tc main_arg1)) := by
  after_results_simp
  operand_reads
  rfl

/-- The destination list with the self loops appended. -/
theorem first_dst : after hostOps0_2 (after hostOps0_1 (after hostOps0 X)) (Proc.devRef .tc main_v6)
    = val_main_v6 (F := F) (X (Proc.devRef .tc main_arg1)) := by
  after_results_simp
  operand_reads
  rfl

/-- Per edge, the product of the inverse square roots of the degrees of its two ends. -/
theorem first_factor : after hostOps0_2 (after hostOps0_1 (after hostOps0 X)) (Proc.devRef .tc main_v29)
    = val_main_v29 (F := F) (X (Proc.devRef .tc main_arg1)) := by
  after_results_simp
  operand_reads
  rfl

theorem first_keep_arg0 : after hostOps0_2 (after hostOps0_1 (after hostOps0 X)) (Proc.devRef .tc main_arg0)
    = X (Proc.devRef .tc main_arg0) := by after_results_simp
theorem first_keep_arg2 : after hostOps0_2 (after hostOps0_1 (after hostOps0 X)) (Proc.devRef .tc main_arg2)
    = X (Proc.devRef .tc main_arg2) := by after_results_simp
theorem first_keep_arg3 : after hostOps0_2 (after hostOps0_1 (after hostOps0 X)) (Proc.devRef .tc main_arg3)
    = X (Proc.devRef .tc main_arg3) := by after_results_simp
theorem first_keep_arg4 : after hostOps0_2 (after hostOps0_1 (after hostOps0 X)) (Proc.devRef .tc main_arg4)
    = X (Proc.devRef .tc main_arg4) := by after_results_simp
theorem first_keep_arg5 : after hostOps0_2 (after hostOps0_1 (after hostOps0 X)) (Proc.devRef .tc main_arg5)
    = X (Proc.devRef .tc main_arg5) := by after_results_simp

/-! ## Between the two products: the first layer's aggregation, bias and maximum with zero -/

/-- From the first product of the features with the first weights, the edge lists and the edge factors, the hidden
    node array. -/
theorem second_hidden
    (x0 : (⟨Cert.ReferenceIdeal.S100000x256, .f32⟩ : BufTy).Contents (Elt F))
    (x1 : (⟨Cert.ReferenceIdeal.S2x3200000, .i32⟩ : BufTy).Contents (Elt F))
    (x2 : (⟨Cert.ReferenceIdeal.S256x32, .f32⟩ : BufTy).Contents (Elt F))
    (x3 : (⟨Cert.ReferenceIdeal.S32, .f32⟩ : BufTy).Contents (Elt F))
    (hp : X (Proc.devRef .tc main_v30) = val_main_v30 (F := F) x0 x2)
    (hs : X (Proc.devRef .tc main_v5) = val_main_v5 (F := F) x1)
    (hd : X (Proc.devRef .tc main_v6) = val_main_v6 (F := F) x1)
    (hf : X (Proc.devRef .tc main_v29) = val_main_v29 (F := F) x1)
    (hb : X (Proc.devRef .tc main_arg3) = x3) :
    after hostOps1_1 (after hostOps1 X) (Proc.devRef .tc main_v47) = val_main_v47 (F := F) x0 x1 x2 x3 := by
  after_results_simp
  rw [hp, hs, hd, hf, hb]
  rfl

theorem second_keep_src : after hostOps1_1 (after hostOps1 X) (Proc.devRef .tc main_v5) = X (Proc.devRef .tc main_v5) := by
  after_results_simp
theorem second_keep_dst : after hostOps1_1 (after hostOps1 X) (Proc.devRef .tc main_v6) = X (Proc.devRef .tc main_v6) := by
  after_results_simp
theorem second_keep_factor : after hostOps1_1 (after hostOps1 X) (Proc.devRef .tc main_v29) = X (Proc.devRef .tc main_v29) := by
  after_results_simp
theorem second_keep_arg4 : after hostOps1_1 (after hostOps1 X) (Proc.devRef .tc main_arg4) = X (Proc.devRef .tc main_arg4) := by
  after_results_simp
theorem second_keep_arg5 : after hostOps1_1 (after hostOps1 X) (Proc.devRef .tc main_arg5) = X (Proc.devRef .tc main_arg5) := by
  after_results_simp

/-! ## After the second product: the second layer's aggregation and bias -/

/-- From the second product of the hidden array with the second weights, the edge lists and the edge factors, the
    result. -/
theorem third_out
    (x0 : (⟨Cert.ReferenceIdeal.S100000x256, .f32⟩ : BufTy).Contents (Elt F))
    (x1 : (⟨Cert.ReferenceIdeal.S2x3200000, .i32⟩ : BufTy).Contents (Elt F))
    (x2 : (⟨Cert.ReferenceIdeal.S256x32, .f32⟩ : BufTy).Contents (Elt F))
    (x3 : (⟨Cert.ReferenceIdeal.S32, .f32⟩ : BufTy).Contents (Elt F))
    (x4 : (⟨Cert.ReferenceIdeal.S32x2, .f32⟩ : BufTy).Contents (Elt F))
    (x5 : (⟨Cert.ReferenceIdeal.S2, .f32⟩ : BufTy).Contents (Elt F))
    (hp : X (Proc.devRef .tc main_v48) = val_main_v48 (F := F) x0 x1 x2 x3 x4)
    (hs : X (Proc.devRef .tc main_v5) = val_main_v5 (F := F) x1)
    (hd : X (Proc.devRef .tc main_v6) = val_main_v6 (F := F) x1)
    (hf : X (Proc.devRef .tc main_v29) = val_main_v29 (F := F) x1)
    (hb : X (Proc.devRef .tc main_arg5) = x5) :
    after hostOps2 X (Proc.devRef .tc main_v64) = val_main_v64 (F := F) x0 x1 x2 x3 x4 x5 := by
  after_results_simp
  rw [hp, hs, hd, hf, hb]
  rfl

end Cert.KernelIdeal.HostChain

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.MatmulA.lean ====
/-
  The first matrix product, read as a value on the extended reals.

  Grid point t of the twenty takes rows 5000·t … 5000·t + 4999 of the node features x (100000 × 256) and the whole
  weight matrix w (256 × 32), and leaves in its output block the product of those rows with w: entry (p, q) of the
  block is the sum over k < 256 of x[5000·t + p, k] · w[k, q]. (Rounding the operands to bf16 on the way in is the
  identity on the extended reals, and the accumulator starts at zero.) The twenty output blocks tile the
  100000 × 32 result, so after the last point the result array holds the whole product:
  entry (a, b) = Σ_k x[a, k] · w[k, b].
-/
import proofs.«106112_j3221225472589_1_alg».proof.Proof.Gen.KernelIdeal.Frame
import proofs.«106112_j3221225472589_1_alg».proof.Proof.LibDot
import Idealize.ShloMosaic.Lib.Pipeline.Value
import Idealize.ShloMosaic.Lib.ValueIdx

set_option maxRecDepth 16384

noncomputable section

open scoped BigOperators

namespace Cert.KernelIdeal.MatmulA

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product of a 100000 × 256 array with a 256 × 32 array: entry (a, b) is Σ_k x[a, k] · w[k, b]. -/
def prod (x : FVec Ideal S100000x256 .f32) (w : FVec Ideal S256x32 .f32) : FVec Ideal S100000x32 .f32 :=
  fun i => ∑ k : Fin 256, x (ix2 (⟨(i 0).val, (i 0).isLt⟩ : Fin 100000) k) * w (ix2 k (⟨(i 1).val, (i 1).isLt⟩ : Fin 32))

theorem prod_apply (x : FVec Ideal S100000x256 .f32) (w : FVec Ideal S256x32 .f32) (a : Fin 100000) (b : Fin 32) :
    prod x w (ix2 a b) = ∑ k : Fin 256, x (ix2 a k) * w (ix2 k b) := rfl

/-- What one grid point computes from its two blocks: entry (p, q) is Σ_k x0[p, k] · x1[k, q]. -/
theorem pay_apply (x0 : Vec Ideal S5000x256 .f32) (x1 : Vec Ideal S256x32 .f32) (p : Fin 5000) (q : Fin 32) :
    k0_pay1 (F := Ideal) x0 x1 (ix2 p q) = ∑ k : Fin 256, x0 (ix2 p k) * x1 (ix2 k q) := by
  unfold k0_pay1
  exact Cert.LibDot.matmul_10_zero_apply dot_S5000x256_S256x32_S5000x32_1_0_0_1_n_n rfl rfl rfl rfl rfl rfl none _ _ p q

theorem hz : (![0, 0] : Fin 2 → Nat) = fun _ => 0 := funext fun a => by fin_cases a <;> rfl

/-- Where each window's block sits at grid point t: the features' and the result's at block row t, the weights' at
    the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The features' block at point t is rows 5000·t … of the features. -/
theorem xblk_apply (c : Dev nD) (t : Fin cfg0.N) (p : Fin 5000) (k : Fin 256) (a : Fin 100000) (ha : a.val = 5000 * t.val + p.val) :
    (iblk0 V c 0 t : Vec Ideal S5000x256 .f32) (ix2 p k) = (V c main_arg0 : FVec Ideal S100000x256 .f32) (ix2 a k) := by
  obtain ⟨e0, e1, -⟩ := idx_facts t
  unfold iblk0
  rw [View.read_apply]
  show V c main_arg0 _ = V c main_arg0 _
  congr 1
  funext ax
  apply Fin.ext
  match ax with
  | ⟨0, _⟩ => show win0_0.index t (0 : Fin 2) * 5000 + 1 * p.val = a.val; rw [e0, ha]; omega
  | ⟨1, _⟩ => show win0_0.index t (1 : Fin 2) * 256 + 1 * k.val = k.val; rw [e1]; omega

/-- The weights' block at every point is the whole weight matrix. -/
theorem wblk_apply (c : Dev nD) (t : Fin cfg0.N) (k : Fin 256) (q : Fin 32) :
    (iblk0 V c 1 t : Vec Ideal S256x32 .f32) (ix2 k q) = (V c main_arg2 : FVec Ideal S256x32 .f32) (ix2 k q) := by
  obtain ⟨-, -, e2, e3, -⟩ := idx_facts t
  unfold iblk0
  rw [View.read_apply]
  show V c main_arg2 _ = V c main_arg2 _
  congr 1
  funext ax
  apply Fin.ext
  match ax with
  | ⟨0, _⟩ => show win0_1.index t (0 : Fin 2) * 256 + 1 * k.val = k.val; rw [e2]; omega
  | ⟨1, _⟩ => show win0_1.index t (1 : Fin 2) * 32 + 1 * q.val = q.val; rw [e3]; omega

/-- The result's block at point t, read off a whole 100000 × 32 array, is rows 5000·t … of it. -/
theorem oblk_apply (c : Dev nD) (t : Fin cfg0.N) (G : FVec Ideal S100000x32 .f32) (p : Fin 5000) (q : Fin 32) (a : Fin 100000)
    (ha : a.val = 5000 * t.val + p.val) :
    (((cfg0.win 2).blk t).view.read (Elt Ideal) G : Vec Ideal S5000x32 .f32) (ix2 p q) = G (ix2 a q) := by
  obtain ⟨-, -, -, -, e4, e5⟩ := idx_facts t
  rw [View.read_apply]
  refine congrArg G (funext fun ax => Fin.ext ?_)
  match ax with
  | ⟨0, _⟩ => show win0_2.index t (0 : Fin 2) * 5000 + 1 * p.val = a.val; rw [e4, ha]; omega
  | ⟨1, _⟩ => show win0_2.index t (1 : Fin 2) * 32 + 1 * q.val = q.val; rw [e5]; omega

/-- What point t writes back is block t of the product of the features with the weights, as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x32) hz]
  funext j
  obtain ⟨p, q, rfl⟩ : ∃ (p : Fin 5000) (q : Fin 32), j = ix2 p q := ⟨j 0, j 1, eq_ix2 j⟩
  have hN : cfg0.N = 20 := N_0
  have ht : t.val < 20 := hN ▸ t.isLt
  have hlt : 5000 * t.val + p.val < 100000 := by have := p.isLt; omega
  refine (pay_apply _ _ p q).trans ?_
  refine Eq.trans ?_ (oblk_apply c t _ p q ⟨5000 * t.val + p.val, hlt⟩ rfl).symm
  rw [prod_apply]
  refine Finset.sum_congr rfl fun k _ => ?_
  rw [xblk_apply V c t p k ⟨5000 * t.val + p.val, hlt⟩ rfl, wblk_apply V c t k q]

/-- After the last point the result array is the whole product. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) fun i => by
    have hN : cfg0.N = 20 := N_0
    have hi0 : (i 0).val < 100000 := (i 0).isLt
    have hi1 : (i 1).val < 32 := (i 1).isLt
    let t : Fin cfg0.N := ⟨(i 0).val / 5000, by rw [hN]; omega⟩
    obtain ⟨-, -, -, -, e4, e5⟩ := idx_facts t
    refine ⟨t, flush0_2 t, ?_⟩
    show i ∈ ((View.whole main_v30).slice (win0_2.rect t)).set
    rw [View.set_slice_whole, Rect.mem_set_unit]
    intro ax
    match ax with
    | ⟨0, _⟩ =>
      show win0_2.index t (0 : Fin 2) * 5000 ≤ (i 0).val ∧ (i 0).val < win0_2.index t (0 : Fin 2) * 5000 + 5000
      rw [e4]; show (i 0).val / 5000 * 5000 ≤ (i 0).val ∧ (i 0).val < (i 0).val / 5000 * 5000 + 5000; omega
    | ⟨1, _⟩ =>
      show win0_2.index t (1 : Fin 2) * 32 ≤ (i 1).val ∧ (i 1).val < win0_2.index t (1 : Fin 2) * 32 + 32
      rw [e5]; omega
end

end Cert.KernelIdeal.MatmulA

end
-- ==== Proof.MatmulB.lean ====
/-
  The second matrix product, read as a value on the extended reals.

  Grid point t of the twenty takes rows 5000·t … 5000·t + 4999 of the hidden node array h (100000 × 32) and the whole
  second weight matrix w (32 × 2), and leaves in its output block the product of those rows with w: entry (p, q) of the
  block is the sum over k < 32 of h[5000·t + p, k] · w[k, q]. (Rounding the operands to bf16 on the way in is the
  identity on the extended reals, the reshape in front of it keeps the shape, and the accumulator starts at zero.) The
  twenty output blocks tile the 100000 × 2 result, so after the last point the result array holds the whole product:
  entry (a, b) = Σ_k h[a, k] · w[k, b].
-/
import proofs.«106112_j3221225472589_1_alg».proof.Proof.Gen.KernelIdeal.Frame
import proofs.«106112_j3221225472589_1_alg».proof.Proof.LibDot
import Idealize.ShloMosaic.Lib.Pipeline.Value
import Idealize.ShloMosaic.Lib.ValueIdx

set_option maxRecDepth 16384

noncomputable section

open scoped BigOperators

namespace Cert.KernelIdeal.MatmulB

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product of a 100000 × 32 array with a 32 × 2 array: entry (a, b) is Σ_k x[a, k] · w[k, b]. -/
def prod (x : FVec Ideal S100000x32 .f32) (w : FVec Ideal S32x2 .f32) : FVec Ideal S100000x2 .f32 :=
  fun i => ∑ k : Fin 32, x (ix2 (⟨(i 0).val, (i 0).isLt⟩ : Fin 100000) k) * w (ix2 k (⟨(i 1).val, (i 1).isLt⟩ : Fin 2))

theorem prod_apply (x : FVec Ideal S100000x32 .f32) (w : FVec Ideal S32x2 .f32) (a : Fin 100000) (b : Fin 2) :
    prod x w (ix2 a b) = ∑ k : Fin 32, x (ix2 a k) * w (ix2 k b) := rfl

/-- What one grid point computes from its two blocks: entry (p, q) is Σ_k x0[p, k] · x1[k, q] (the reshape in front keeps the shape). -/
theorem pay_apply (x0 : Vec Ideal S5000x32 .f32) (x1 : Vec Ideal S32x2 .f32) (p : Fin 5000) (q : Fin 2) :
    k1_pay1 (F := Ideal) x0 x1 (ix2 p q) = ∑ k : Fin 32, x0 (ix2 p k) * x1 (ix2 k q) := by
  unfold k1_pay1
  rw [shapeCast_self]
  exact Cert.LibDot.matmul_10_zero_apply dot_S5000x32_S32x2_S5000x2_1_0_0_1_n_n rfl rfl rfl rfl rfl rfl none _ _ p q

theorem hz : (![0, 0] : Fin 2 → Nat) = fun _ => 0 := funext fun a => by fin_cases a <;> rfl

/-- Where each window's block sits at grid point t: the hidden array's and the result's at block row t, the weights' at
    the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- The hidden array's block at point t is rows 5000·t … of the hidden array. -/
theorem xblk_apply (c : Dev nD) (t : Fin cfg1.N) (p : Fin 5000) (k : Fin 32) (a : Fin 100000) (ha : a.val = 5000 * t.val + p.val) :
    (iblk1 V c 0 t : Vec Ideal S5000x32 .f32) (ix2 p k) = (V c main_v47 : FVec Ideal S100000x32 .f32) (ix2 a k) := by
  obtain ⟨e0, e1, -⟩ := idx_facts t
  unfold iblk1
  rw [View.read_apply]
  show V c main_v47 _ = V c main_v47 _
  congr 1
  funext ax
  apply Fin.ext
  match ax with
  | ⟨0, _⟩ => show win1_0.index t (0 : Fin 2) * 5000 + 1 * p.val = a.val; rw [e0, ha]; omega
  | ⟨1, _⟩ => show win1_0.index t (1 : Fin 2) * 32 + 1 * k.val = k.val; rw [e1]; omega

/-- The weights' block at every point is the whole weight matrix. -/
theorem wblk_apply (c : Dev nD) (t : Fin cfg1.N) (k : Fin 32) (q : Fin 2) :
    (iblk1 V c 1 t : Vec Ideal S32x2 .f32) (ix2 k q) = (V c main_arg4 : FVec Ideal S32x2 .f32) (ix2 k q) := by
  obtain ⟨-, -, e2, e3, -⟩ := idx_facts t
  unfold iblk1
  rw [View.read_apply]
  show V c main_arg4 _ = V c main_arg4 _
  congr 1
  funext ax
  apply Fin.ext
  match ax with
  | ⟨0, _⟩ => show win1_1.index t (0 : Fin 2) * 32 + 1 * k.val = k.val; rw [e2]; omega
  | ⟨1, _⟩ => show win1_1.index t (1 : Fin 2) * 2 + 1 * q.val = q.val; rw [e3]; omega

/-- The result's block at point t, read off a whole 100000 × 32 array, is rows 5000·t … of it. -/
theorem oblk_apply (c : Dev nD) (t : Fin cfg1.N) (G : FVec Ideal S100000x2 .f32) (p : Fin 5000) (q : Fin 2) (a : Fin 100000)
    (ha : a.val = 5000 * t.val + p.val) :
    (((cfg1.win 2).blk t).view.read (Elt Ideal) G : Vec Ideal S5000x2 .f32) (ix2 p q) = G (ix2 a q) := by
  obtain ⟨-, -, -, -, e4, e5⟩ := idx_facts t
  rw [View.read_apply]
  refine congrArg G (funext fun ax => Fin.ext ?_)
  match ax with
  | ⟨0, _⟩ => show win1_2.index t (0 : Fin 2) * 5000 + 1 * p.val = a.val; rw [e4, ha]; omega
  | ⟨1, _⟩ => show win1_2.index t (1 : Fin 2) * 2 + 1 * q.val = q.val; rw [e5]; omega

/-- What point t writes back is block t of the product of the hidden array with the weights, as the region finds them. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2]
  unfold out1_2
  rw [View.canon_unit_zero hz]
  simp only [View.ld_unit_zero (S := S5000x32) hz, View.ld_unit_zero (S := S32x2) hz]
  funext j
  obtain ⟨p, q, rfl⟩ : ∃ (p : Fin 5000) (q : Fin 2), j = ix2 p q := ⟨j 0, j 1, eq_ix2 j⟩
  have hN : cfg1.N = 20 := N_1
  have ht : t.val < 20 := hN ▸ t.isLt
  have hlt : 5000 * t.val + p.val < 100000 := by have := p.isLt; omega
  refine (pay_apply _ _ p q).trans ?_
  refine Eq.trans ?_ (oblk_apply c t _ p q ⟨5000 * t.val + p.val, hlt⟩ rfl).symm
  rw [prod_apply]
  refine Finset.sum_congr rfl fun k _ => ?_
  rw [xblk_apply V c t p k ⟨5000 * t.val + p.val, hlt⟩ rfl, wblk_apply V c t k q]

/-- After the last point the result array is the whole product. -/
theorem final (c : Dev nD) : (dat1 V c).arrAt 2 cfg1.N = prod (V c main_v47) (V c main_arg4) :=
  (dat1 V c).arrAt_eq_of_cover 2 (prod (V c main_v47) (V c main_arg4)) (fun t _ => flushed_eq V c t) fun i => by
    have hN : cfg1.N = 20 := N_1
    have hi0 : (i 0).val < 100000 := (i 0).isLt
    have hi1 : (i 1).val < 2 := (i 1).isLt
    let t : Fin cfg1.N := ⟨(i 0).val / 5000, by rw [hN]; omega⟩
    obtain ⟨-, -, -, -, e4, e5⟩ := idx_facts t
    refine ⟨t, flush1_2 t, ?_⟩
    show i ∈ ((View.whole main_v48).slice (win1_2.rect t)).set
    rw [View.set_slice_whole, Rect.mem_set_unit]
    intro ax
    match ax with
    | ⟨0, _⟩ =>
      show win1_2.index t (0 : Fin 2) * 5000 ≤ (i 0).val ∧ (i 0).val < win1_2.index t (0 : Fin 2) * 5000 + 5000
      rw [e4]; show (i 0).val / 5000 * 5000 ≤ (i 0).val ∧ (i 0).val < (i 0).val / 5000 * 5000 + 5000; omega
    | ⟨1, _⟩ =>
      show win1_2.index t (1 : Fin 2) * 2 ≤ (i 1).val ∧ (i 1).val < win1_2.index t (1 : Fin 2) * 2 + 2
      rw [e5]; omega
end

end Cert.KernelIdeal.MatmulB

end
-- ==== Proof.KernelValue.lean ====
/-
  The kernel program's result as a function of its arguments, at the ideal values.

  The program runs host operations, the first product, host operations, the second product, host operations. At each
  boundary the buffers the next stretch reads hold the reference program's stages of the launch arguments: the edge
  lists and edge factors after the first stretch; the product x · W1 after the first region (the twenty blocks written
  back tile the array, and the host's contraction is the same sum over the 256 shared coordinates); the hidden node
  array after the second stretch; the product h · W2 after the second region; the result after the last stretch.
  A region leaves every buffer that is not one of its three arrays as it found it, and a host stretch every buffer it
  does not write.
-/
import proofs.«106112_j3221225472589_1_alg».proof.Proof.HostChain
import proofs.«106112_j3221225472589_1_alg».proof.Proof.MatmulA
import proofs.«106112_j3221225472589_1_alg».proof.Proof.MatmulB

set_option maxRecDepth 16384

noncomputable section

open scoped BigOperators

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen Cert.ReferenceIdeal.ReadP

/-! ## The two products are the reference's contractions -/

/-- The first product is the host's contraction of the features with the first weights. -/
theorem prodA_eq (x0 : FVec Ideal S100000x256 .f32) (x2 : FVec Ideal S256x32 .f32) :
    MatmulA.prod x0 x2 = val_main_v30 (F := Ideal) x0 x2 := by
  funext i
  rw [val_main_v30_apply]
  unfold MatmulA.prod
  refine Finset.sum_congr rfl fun k _ => ?_
  have el : (ix2 (⟨(i 0).val, (i 0).isLt⟩ : Fin 100000) k : S100000x256.Idx) = lidx_main_v30 i k :=
    funext fun a => Fin.ext (by match a with | ⟨0, _⟩ => rfl | ⟨1, _⟩ => rfl)
  have er : (ix2 k (⟨(i 1).val, (i 1).isLt⟩ : Fin 32) : S256x32.Idx) = ridx_main_v30 i k :=
    funext fun a => Fin.ext (by match a with | ⟨0, _⟩ => rfl | ⟨1, _⟩ => rfl)
  rw [el, er]

/-- The second product is the host's contraction of the hidden array with the second weights. -/
theorem prodB_eq (x0 : FVec Ideal S100000x256 .f32) (x1 : (⟨S2x3200000, .i32⟩ : BufTy).Contents (Elt Ideal))
    (x2 : FVec Ideal S256x32 .f32) (x3 : FVec Ideal S32 .f32) (x4 : FVec Ideal S32x2 .f32) :
    MatmulB.prod (val_main_v47 (F := Ideal) x0 x1 x2 x3) x4 = val_main_v48 (F := Ideal) x0 x1 x2 x3 x4 := by
  funext i
  rw [val_main_v48_apply]
  unfold MatmulB.prod
  refine Finset.sum_congr rfl fun k _ => ?_
  have el : (ix2 (⟨(i 0).val, (i 0).isLt⟩ : Fin 100000) k : S100000x32.Idx) = lidx_main_v48 i k :=
    funext fun a => Fin.ext (by match a with | ⟨0, _⟩ => rfl | ⟨1, _⟩ => rfl)
  have er : (ix2 k (⟨(i 1).val, (i 1).isLt⟩ : Fin 2) : S32x2.Idx) = ridx_main_v48 i k :=
    funext fun a => Fin.ext (by match a with | ⟨0, _⟩ => rfl | ⟨1, _⟩ => rfl)
  rw [el, er]

/-! ## The contents at each boundary -/

variable (m : (ℓ : Loc nD τ sig) → Buf (Elt Ideal) ℓ) (ρ : Dev nD → PrngReg) (c : Dev nD)

/-- The launch arguments on core `c`. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-! ### At the first region's entry -/

theorem in0_src : W3 m ρ c (Proc.devRef .tc main_v5) = val_main_v5 (F := Ideal) (a1 m c) := HostChain.first_src (W0 m ρ c)
theorem in0_dst : W3 m ρ c (Proc.devRef .tc main_v6) = val_main_v6 (F := Ideal) (a1 m c) := HostChain.first_dst (W0 m ρ c)
theorem in0_factor : W3 m ρ c (Proc.devRef .tc main_v29) = val_main_v29 (F := Ideal) (a1 m c) := HostChain.first_factor (W0 m ρ c)
theorem in0_arg0 : W3 m ρ c (Proc.devRef .tc main_arg0) = a0 m c := HostChain.first_keep_arg0 (W0 m ρ c)
theorem in0_arg2 : W3 m ρ c (Proc.devRef .tc main_arg2) = a2 m c := HostChain.first_keep_arg2 (W0 m ρ c)
theorem in0_arg3 : W3 m ρ c (Proc.devRef .tc main_arg3) = a3 m c := HostChain.first_keep_arg3 (W0 m ρ c)
theorem in0_arg4 : W3 m ρ c (Proc.devRef .tc main_arg4) = a4 m c := HostChain.first_keep_arg4 (W0 m ρ c)
theorem in0_arg5 : W3 m ρ c (Proc.devRef .tc main_arg5) = a5 m c := HostChain.first_keep_arg5 (W0 m ρ c)

/-! ### At the first region's exit -/

theorem out0_src : W4 m ρ c (Proc.devRef .tc main_v5) = val_main_v5 (F := Ideal) (a1 m c) :=
  (W4_of_ne m ρ c main_v5 (by decide)).trans (in0_src m ρ c)
theorem out0_dst : W4 m ρ c (Proc.devRef .tc main_v6) = val_main_v6 (F := Ideal) (a1 m c) :=
  (W4_of_ne m ρ c main_v6 (by decide)).trans (in0_dst m ρ c)
theorem out0_factor : W4 m ρ c (Proc.devRef .tc main_v29) = val_main_v29 (F := Ideal) (a1 m c) :=
  (W4_of_ne m ρ c main_v29 (by decide)).trans (in0_factor m ρ c)
theorem out0_arg3 : W4 m ρ c (Proc.devRef .tc main_arg3) = a3 m c :=
  (W4_of_ne m ρ c main_arg3 (by decide)).trans (in0_arg3 m ρ c)
theorem out0_arg4 : W4 m ρ c (Proc.devRef .tc main_arg4) = a4 m c :=
  (W4_of_ne m ρ c main_arg4 (by decide)).trans (in0_arg4 m ρ c)
theorem out0_arg5 : W4 m ρ c (Proc.devRef .tc main_arg5) = a5 m c :=
  (W4_of_ne m ρ c main_arg5 (by decide)).trans (in0_arg5 m ρ c)

/-- The first region's result array holds the contraction of the features with the first weights. -/
theorem out0_prod : W4 m ρ c (Proc.devRef .tc main_v30) = val_main_v30 (F := Ideal) (a0 m c) (a2 m c) := by
  have h := (W4_arr m ρ c 2).trans (MatmulA.final (V3 m ρ) c)
  have e0 : V3 m ρ c main_arg0 = a0 m c := in0_arg0 m ρ c
  have e2 : V3 m ρ c main_arg2 = a2 m c := in0_arg2 m ρ c
  rw [e0, e2] at h
  exact h.trans (prodA_eq _ _)

/-! ### At the second region's entry -/

theorem in1_hidden : W6 m ρ c (Proc.devRef .tc main_v47) = val_main_v47 (F := Ideal) (a0 m c) (a1 m c) (a2 m c) (a3 m c) :=
  HostChain.second_hidden (W4 m ρ c) _ _ _ _ (out0_prod m ρ c) (out0_src m ρ c) (out0_dst m ρ c) (out0_factor m ρ c) (out0_arg3 m ρ c)
theorem in1_src : W6 m ρ c (Proc.devRef .tc main_v5) = val_main_v5 (F := Ideal) (a1 m c) :=
  (HostChain.second_keep_src (W4 m ρ c)).trans (out0_src m ρ c)
theorem in1_dst : W6 m ρ c (Proc.devRef .tc main_v6) = val_main_v6 (F := Ideal) (a1 m c) :=
  (HostChain.second_keep_dst (W4 m ρ c)).trans (out0_dst m ρ c)
theorem in1_factor : W6 m ρ c (Proc.devRef .tc main_v29) = val_main_v29 (F := Ideal) (a1 m c) :=
  (HostChain.second_keep_factor (W4 m ρ c)).trans (out0_factor m ρ c)
theorem in1_arg4 : W6 m ρ c (Proc.devRef .tc main_arg4) = a4 m c :=
  (HostChain.second_keep_arg4 (W4 m ρ c)).trans (out0_arg4 m ρ c)
theorem in1_arg5 : W6 m ρ c (Proc.devRef .tc main_arg5) = a5 m c :=
  (HostChain.second_keep_arg5 (W4 m ρ c)).trans (out0_arg5 m ρ c)

/-! ### At the second region's exit -/

theorem out1_src : W7 m ρ c (Proc.devRef .tc main_v5) = val_main_v5 (F := Ideal) (a1 m c) :=
  (W7_of_ne m ρ c main_v5 (by decide)).trans (in1_src m ρ c)
theorem out1_dst : W7 m ρ c (Proc.devRef .tc main_v6) = val_main_v6 (F := Ideal) (a1 m c) :=
  (W7_of_ne m ρ c main_v6 (by decide)).trans (in1_dst m ρ c)
theorem out1_factor : W7 m ρ c (Proc.devRef .tc main_v29) = val_main_v29 (F := Ideal) (a1 m c) :=
  (W7_of_ne m ρ c main_v29 (by decide)).trans (in1_factor m ρ c)
theorem out1_arg5 : W7 m ρ c (Proc.devRef .tc main_arg5) = a5 m c :=
  (W7_of_ne m ρ c main_arg5 (by decide)).trans (in1_arg5 m ρ c)

/-- The second region's result array holds the contraction of the hidden array with the second weights. -/
theorem out1_prod : W7 m ρ c (Proc.devRef .tc main_v48)
    = val_main_v48 (F := Ideal) (a0 m c) (a1 m c) (a2 m c) (a3 m c) (a4 m c) := by
  have h := (W7_arr m ρ c 2).trans (MatmulB.final (V6 m ρ) c)
  have e0 : V6 m ρ c main_v47 = val_main_v47 (F := Ideal) (a0 m c) (a1 m c) (a2 m c) (a3 m c) := in1_hidden m ρ c
  have e4 : V6 m ρ c main_arg4 = a4 m c := in1_arg4 m ρ c
  rw [e0, e4] at h
  exact h.trans (prodB_eq _ _ _ _ _)

/-! ### At the return -/

/-- The result buffer at the return is the reference's last stage of the launch arguments. -/
theorem result_eq : W8 m ρ c (Proc.devRef .tc main_v64)
    = val_main_v64 (F := Ideal) (a0 m c) (a1 m c) (a2 m c) (a3 m c) (a4 m c) (a5 m c) :=
  HostChain.third_out (W7 m ρ c) _ _ _ _ _ _ (out1_prod m ρ c) (out1_src m ρ c) (out1_dst m ρ c) (out1_factor m ρ c) (out1_arg5 m ρ c)

end Cert.KernelIdeal.Boundary

end
-- ==== Proof.lean ====
/-
  A two-layer graph convolution: the kernel program against the reference, over the extended reals.

  Both programs compute, from node features x (100000 × 256), an edge list e, weights W1 (256 × 32), W2 (32 × 2) and
  biases b1, b2,

      out = A · (relu (A · (x · W1) + b1) · W2) + b2,

  where A is the normalised adjacency with self loops: (A · h)[d] is the sum over the edges (s, d) of
  f(s, d) · h[s], with f the product of the inverse square roots of the two ends' degrees. The gathers, the scaling,
  the scatter-additions, the bias additions and the maximum with zero are the same host operations in the same order
  in both programs. They differ only in the two matrix products, which the kernel program computes on a grid of twenty
  row blocks of 5000 rows each, rounding its operands to bf16 and accumulating from zero, and the reference as one
  contraction. On the extended reals the rounding is the identity, each block's entry (p, q) is the sum over the shared
  coordinate of the products, and the twenty blocks tile the result; so each product is the reference's contraction,
  entry by entry, as the same sum over the same index set, and the results agree with no use of finiteness.

  The kernel's frames are the generated ones; the reference's is its run with the result dropped; the idealization
  rewrote nothing.
-/
import proofs.«106112_j3221225472589_1_alg».proof.Defs
import proofs.«106112_j3221225472589_1_alg».proof.Proof.Gen.Kernel
import proofs.«106112_j3221225472589_1_alg».proof.Proof.Gen.Kernel.Skeleton
import proofs.«106112_j3221225472589_1_alg».proof.Proof.Gen.Kernel.Launch
import proofs.«106112_j3221225472589_1_alg».proof.Proof.Gen.Kernel.Points
import proofs.«106112_j3221225472589_1_alg».proof.Proof.Gen.Kernel.Frame
import proofs.«106112_j3221225472589_1_alg».proof.Proof.Gen.KernelIdeal
import proofs.«106112_j3221225472589_1_alg».proof.Proof.Gen.KernelIdeal.Skeleton
import proofs.«106112_j3221225472589_1_alg».proof.Proof.Gen.KernelIdeal.Launch
import proofs.«106112_j3221225472589_1_alg».proof.Proof.Gen.KernelIdeal.Points
import proofs.«106112_j3221225472589_1_alg».proof.Proof.Gen.KernelIdeal.Frame
import proofs.«106112_j3221225472589_1_alg».proof.Proof.Gen.ReferenceIdeal
import proofs.«106112_j3221225472589_1_alg».proof.Proof.Gen.Pre_finite_inputs
import proofs.«106112_j3221225472589_1_alg».proof.Proof.RefRun
import proofs.«106112_j3221225472589_1_alg».proof.Proof.RefRead
import proofs.«106112_j3221225472589_1_alg».proof.Proof.KernelRun
import proofs.«106112_j3221225472589_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result buffer at the reference's last stage of the (agreeing) launch arguments: the kernel
    program's by reading its boundaries one after the other, the reference's by its run. -/
theorem algebraic : Cert.algebraic_KernelIdeal_ReferenceIdeal := by
  intro m ρ m' ρ' _ hagree
  refine ⟨fun c => Cert.ReferenceIdeal.ReadP.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.result_eq m ρ c), (h c).2⟩)
      (Cert.KernelIdeal.GenP.run_named (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v64_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
